-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S8192x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096 : Shape := ⟨1, ![4096]⟩
abbrev S_ : Shape := ⟨0, ![]⟩
abbrev S1x4096 : Shape := ⟨2, ![1, 4096]⟩
abbrev S8192x1 : Shape := ⟨2, ![8192, 1]⟩
abbrev S256x4096 : Shape := ⟨2, ![256, 4096]⟩
abbrev S256x1 : Shape := ⟨2, ![256, 1]⟩
abbrev S256 : Shape := ⟨1, ![256]⟩

abbrev nBuf : Space → Nat
  | .hbm => 34
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .i1⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S1x4096, .f32⟩
  | .hbm, ⟨21, _⟩ => ⟨S4096, .f32⟩
  | .hbm, ⟨22, _⟩ => ⟨S_, .f32⟩
  | .hbm, ⟨23, _⟩ => ⟨S_, .f32⟩
  | .hbm, ⟨24, _⟩ => ⟨S8192x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x1, .f32⟩
  | .local _ .vmem, ⟨6, _⟩ => ⟨S256x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_cst_4 : Ref sig .tc := ⟨.hbm, 32, rfl⟩
abbrev main_v11 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096 : S_.BroadcastsInDim S4096 (![] : Fin 0 → Fin S4096.rank)
  shapeCasts_S4096_S1x4096 : S4096.ShapeCasts S1x4096
  reducesTo_S4096_S_d0 : S4096.ReducesTo [0] S_
  h_S_ : 0 < S_.numel
  inb_S256x4096_S256x4096_0_0 : ∀ a, (![0, 0] : Fin 2 → Nat) a + S256x4096.size a ≤ S256x4096.size a
  h_S256x4096 : 0 < S256x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S8192x1_S_d0_1 : S8192x1.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S_ : Shape := ⟨0, ![]⟩
abbrev S1x4096 : Shape := ⟨2, ![1, 4096]⟩
abbrev S8192 : Shape := ⟨1, ![8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .i1⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  h_S_ : 0 < S_.numel
  reducesTo_S4096_S_d0 : S4096.ReducesTo [0] S_
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.Spec.lean ====
/-
  The scalar facts of the diagonal-Gaussian negative log-likelihood, read on the extended reals.

  * The float words the two programs spell, as the reals they denote: 0, 1, 1/2, -1/2, 4096, and the two words
    for the additive constant, 7527.9443359375 per row (the reference) and 30834460 for all 8192 rows (the kernel);
    the second is exactly 4096 times the first, the half of 8192 rows each contributing the first.
  * softplus, the variance of one coordinate: at a real s the composition
      select (d ≠ d) (s + 0) (max s 0 + log1p (exp (-|d|))),  d = s - 0,
    is the real  max s 0 + log (1 + exp (-|s|)),  which is positive — so dividing by it is multiplying by its
    reciprocal, and its logarithm is a real.
-/
import Idealize.ShloMosaic.PureOps.Ideal
import Idealize.ShloMosaic.PureOps.Ideal.Laws
import Idealize.ShloMosaic.Lib.ValueIdx

noncomputable section

namespace Cert.DiagGauss

open Idealize.ShloMosaic

/-! ## The words -/

theorem w_zero : Ideal.ofBits .f32 0x00000000#32 = ((0 : ℝ) : EReal) := by
  rw [Ideal.ofBits_zero_f32]; rfl

theorem w_one : Ideal.ofBits .f32 0x3F800000#32 = ((1 : ℝ) : EReal) := by
  simp [Ideal.ofBits, Ideal.ieee, -EReal.coe_mul]; norm_num

theorem w_half : Ideal.ofBits .f32 0x3F000000#32 = ((1 / 2 : ℝ) : EReal) := by
  simp [Ideal.ofBits, Ideal.ieee, -EReal.coe_mul]; norm_num

theorem w_neg_half : Ideal.ofBits .f32 0xBF000000#32 = ((-(1 / 2) : ℝ) : EReal) := by
  simp [Ideal.ofBits, Ideal.ieee, -EReal.coe_mul]; norm_num

theorem w_4096 : Ideal.ofBits .f32 0x45800000#32 = ((4096 : ℝ) : EReal) := by
  simp [Ideal.ofBits, Ideal.ieee, -EReal.coe_mul]; norm_num

/-- The reference's per-row constant, n · log 2π rounded to f32: the dyadic 15417230 / 2^11. -/
theorem w_row : Ideal.ofBits .f32 0x45EB3F8E#32 = ((15417230 / 2048 : ℝ) : EReal) := by
  simp [Ideal.ofBits, Ideal.ieee, -EReal.coe_mul]; norm_num

/-- The kernel's constant for all rows, (rows / 2) · n · log 2π rounded to f32: the same significand 2^12 higher. -/
theorem w_all : Ideal.ofBits .f32 0x4BEB3F8E#32 = ((30834460 : ℝ) : EReal) := by
  simp [Ideal.ofBits, Ideal.ieee, -EReal.coe_mul]; norm_num

/-! ## softplus at one coordinate -/

/-- One coordinate of softplus as both programs compose it:
    select (d ≠ d) (s + 0) (max s 0 + log1p (exp (-|d|))) with d = s - 0. -/
def sp (s : EReal) : EReal :=
  Scalar.select (Ideal.cmp .une (s - Ideal.ofBits .f32 0x00000000#32) (s - Ideal.ofBits .f32 0x00000000#32))
    (s + Ideal.ofBits .f32 0x00000000#32)
    (max s (Ideal.ofBits .f32 0x00000000#32)
      + Ideal.log1p (Ideal.exp (-(max (s - Ideal.ofBits .f32 0x00000000#32) (-(s - Ideal.ofBits .f32 0x00000000#32))))))

/-- The real it is at a real: max r 0 + log (1 + e^(-|r|)). -/
def spR (r : ℝ) : ℝ := max r 0 + Real.log (1 + Real.exp (-|r|))

/-- A variance is positive: the logarithm's argument exceeds 1. -/
theorem spR_pos (r : ℝ) : 0 < spR r := by
  unfold spR
  have h1 : 0 ≤ max r 0 := le_max_right _ _
  have h2 : 0 < Real.log (1 + Real.exp (-|r|)) := Real.log_pos (by linarith [Real.exp_pos (-|r|)])
  linarith

theorem sp_coe (r : ℝ) : sp (r : EReal) = ((spR r : ℝ) : EReal) := by
  unfold sp spR
  rw [Ideal.ofBits_zero_f32, sub_zero, add_zero]
  have hne : Ideal.cmp .une (r : EReal) (r : EReal) = 0#1 := by simp [Ideal.cmp]
  rw [hne, ValueIdx.select_zero]
  have habs : max (r : EReal) (-(r : EReal)) = ((|r| : ℝ) : EReal) := by
    rw [← EReal.coe_neg, abs_eq_max_neg]; exact (EReal.coe_strictMono.monotone.map_max).symm
  have hmax : max (r : EReal) 0 = ((max r 0 : ℝ) : EReal) := by
    rw [← EReal.coe_zero]; exact (EReal.coe_strictMono.monotone.map_max).symm
  rw [habs, hmax, ← EReal.coe_neg, Ideal.exp_coe, Ideal.log1p, ← EReal.coe_one, ← EReal.coe_add, Ideal.log_coe,
    if_neg (by linarith [Real.exp_pos (-|r|)]), ← EReal.coe_add]

/-! ## The two scalars, and the law between them -/

abbrev Mat : Shape := ⟨2, ![8192, 4096]⟩
abbrev Lanes : Shape := ⟨1, ![4096]⟩
abbrev Col : Shape := ⟨2, ![8192, 1]⟩
abbrev Rows : Shape := ⟨1, ![8192]⟩

open ValueIdx

/-- What the kernel's program returns: with w_k = 1 / softplus σ_k,
    ½ · (0 + Σ_(b,0) Σ_k (g_bk - p_bk)² · w_k) + 4096 · (0 + Σ_k log softplus σ_k) + 30834460. -/
def kernelLoss (P G : Mat.Idx → EReal) (σ : Lanes.Idx → EReal) : EReal :=
  (Ideal.ofBits .f32 0x3F000000#32
      * (Ideal.ofBits .f32 0x00000000#32
          + ∑ i : Col.Idx, ∑ k : Fin 4096,
              ((G (ix2 (i 0) k) - P (ix2 (i 0) k)) * (G (ix2 (i 0) k) - P (ix2 (i 0) k)))
                * Ideal.div (Ideal.ofBits .f32 0x3F800000#32) (sp (σ (ix1 k))))
    + Ideal.ofBits .f32 0x45800000#32 * (Ideal.ofBits .f32 0x00000000#32 + ∑ j : Lanes.Idx, Ideal.log (sp (σ j))))
  + Ideal.ofBits .f32 0x4BEB3F8E#32

/-- What the reference returns:
    -(0 + Σ_b -½ · (((0 + Σ_k (g_bk - p_bk)² / softplus σ_k) + (0 + Σ_k log softplus σ_k)) + 7527.94…)). -/
def refLoss (P G : Mat.Idx → EReal) (σ : Lanes.Idx → EReal) : EReal :=
  -(Ideal.ofBits .f32 0x00000000#32
      + ∑ j : Rows.Idx, Ideal.ofBits .f32 0xBF000000#32
          * (((Ideal.ofBits .f32 0x00000000#32
                + ∑ k : Fin 4096,
                    Ideal.div ((G (ix2 (j 0) k) - P (ix2 (j 0) k)) * (G (ix2 (j 0) k) - P (ix2 (j 0) k))) (sp (σ (ix1 k))))
              + (Ideal.ofBits .f32 0x00000000#32 + ∑ j' : Lanes.Idx, Ideal.log (sp (σ j'))))
            + Ideal.ofBits .f32 0x45EB3F8E#32))

/-- A finite sum of reals, summed on the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum over the indices of a rank-1 shape is the sum over its one coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ : Fin n ≃ (⟨1, ![n]⟩ : Shape).Idx) f).symm

/-- The law on the reals: every row contributes half its quadratic form, half the log-determinant and half the
    constant; 8192 halves of the log-determinant are 4096 of them, and 4096 · 15417230 / 2048 = 30834460. -/
theorem real_law (q : Fin 8192 → ℝ) (L : ℝ) :
    1 / 2 * (0 + ∑ a, q a) + 4096 * (0 + L) + 30834460
      = -(0 + ∑ a : Fin 8192, -(1 / 2) * (((0 + q a) + (0 + L)) + 15417230 / 2048)) := by
  have h : ∀ a, -(1 / 2 : ℝ) * (((0 + q a) + (0 + L)) + 15417230 / 2048)
      = -(1 / 2) * q a + (-(1 / 2) * (L + 15417230 / 2048)) := fun a => by ring
  rw [Finset.sum_congr rfl (fun a _ => h a), Finset.sum_add_distrib, Finset.sum_const, Finset.card_univ,
    Fintype.card_fin, ← Finset.mul_sum, nsmul_eq_mul]
  push_cast
  ring

/-- On real inputs the two programs return the same extended real. Realness is what the law needs: the variance
    is then a positive real, so the quotient is the product with the reciprocal, and the sums are real sums in
    which the factor ½ distributes. -/
theorem kernelLoss_eq_refLoss (P G : Mat.Idx → EReal) (σ : Lanes.Idx → EReal)
    (hP : ∀ i, ∃ r : ℝ, P i = r) (hG : ∀ i, ∃ r : ℝ, G i = r) (hσ : ∀ i, ∃ r : ℝ, σ i = r) :
    kernelLoss P G σ = refLoss P G σ := by
  choose p hp using hP
  choose g hg using hG
  choose s hs using hσ
  have hdiv : ∀ (x : ℝ) (k : Lanes.Idx), Ideal.div (x : EReal) (sp (σ k)) = ((x * (1 / spR (s k)) : ℝ) : EReal) := by
    intro x k
    rw [hs, sp_coe, Ideal.div_coe (spR_pos _).ne', ← EReal.coe_mul]
  have hlog : ∀ k : Lanes.Idx, Ideal.log (sp (σ k)) = ((Real.log (spR (s k)) : ℝ) : EReal) := by
    intro k
    rw [hs, sp_coe, Ideal.log_coe, if_neg (not_le.2 (spR_pos _))]
  unfold kernelLoss refLoss
  simp only [hp, hg, w_zero, w_one, w_half, w_neg_half, w_4096, w_row, w_all, hlog, ← EReal.coe_sub, ← EReal.coe_mul, hdiv,
    coe_sum, ← EReal.coe_add, ← EReal.coe_neg]
  refine congrArg _ ?_
  rw [sum_idx2, sum_idx1 (n := 8192)]
  simp only [Fin.sum_univ_one, one_mul]
  exact real_law (fun a => ∑ k : Fin 4096, (g (ix2 a k) - p (ix2 a k)) * (g (ix2 a k) - p (ix2 a k)) * (1 / spR (s (ix1 k))))
    (∑ j : Lanes.Idx, Real.log (spR (s j)))

end Cert.DiagGauss

end
-- ==== Proof.Finite.lean ====
/-
  The precondition read back: every input entry is a real.

  The precondition is  all (|x| < +∞)  over each of the three input arrays, conjoined. On the extended reals
  |x| = max x (-x), which is +∞ at both infinities; so an entry whose absolute value is strictly below +∞ is
  neither infinity, that is, it is a real number.
-/
import proofs.«107844_j6262062318269_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Reals

open Cert.Pre_finite_inputs Idealize.ShloMosaic

variable [Cert.Pre_finite_inputs.Facts]

instance : Subsingleton S_.Idx := ⟨fun a b => funext fun d => d.elim0⟩

/-- The word 0x7F800000 is +∞. -/
theorem w_inf : Ideal.ofBits .f32 0x7F800000#32 = ⊤ := by
  simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ r : ℝ, x = r := by
  rw [w_inf] at h
  induction x using EReal.rec with
  | bot => simp [Ideal.cmp] at h
  | coe r => exact ⟨r, rfl⟩
  | top => simp [Ideal.cmp] at h

/-- Under the precondition all three arrays are real-valued. -/
theorem reals_of_pre (a0 a1 : FVec Ideal S8192x4096 .f32) (a2 : FVec Ideal S4096 .f32)
    (h : fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt_inf _ (Host.reduce_andi_all _ _ _ _ _ h0' i)
  · exact real_of_abs_lt_inf _ (Host.reduce_andi_all _ _ _ _ _ h1 i)
  · exact real_of_abs_lt_inf _ (Host.reduce_andi_all _ _ _ _ _ h2 i)

end Cert.Pre_finite_inputs.Reals

end
-- ==== Proof.Block.lean ====
/-
  One grid point of the kernel: rows of a [256, 4096] block.

  The body loads the block of the targets (window 1), the block of the predictions (window 0) and the whole
  [1, 4096] row of reciprocal variances (window 2), forms (g - p)·(g - p)·w with the row broadcast down the 256
  rows, sums each row over its 4096 lanes, and stores the 256 sums as a [256, 1] column. So the stored column at
  row r is  Σ_k (g(r,k) - p(r,k))² · w(0,k).
-/
import proofs.«107844_j6262062318269_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowQuad

open Cert.KernelIdeal Cert.KernelIdeal.Gen Idealize.ShloMosaic Idealize.ShloMosaic.ValueIdx

/-- A [256] vector cast to a [256, 1] column reads, at (r, u), the vector at r. -/
theorem column_apply {α : Type} (x : S256.Idx → α) (h : S256.ShapeCasts S256x1) (r : Fin 256) (u : Fin 1) :
    shapeCast S256x1 x h (ix2 r u) = x (ix1 r) :=
  shapeCast_apply x h _ _ (by
    have hu : u.val = 0 := by omega
    rw [Shape.rowMajor_val_two, Shape.rowMajor_val_one]
    show r.val = r.val * 1 + u.val
    omega)

/-- The lane sum of a [256, 4096] tile at row r is the sum over the 4096 lanes of that row. -/
theorem rowsum_apply (x : FVec Ideal S256x4096 .f32) (h : S256x4096.Reduces [1] S256) (hφ : FKind.Formats .f32)
    (hacc : (0x00000000#32 : BitVec 32) = 0x00000000#32) (r : Fin 256) :
    multiReduction .add [1] S256 x 0x00000000#32 h hφ hacc (ix1 r) = ∑ k : Fin 4096, x (ix2 r k) := by
  refine (Ideal.multiReduction_add_single x 0x00000000#32 h hφ hacc (ix1 r)).trans ?_
  refine Finset.sum_congr rfl fun k _ => congrArg x (funext fun a => Fin.ext ?_)
  match a with
  | ⟨0, _⟩ => rfl
  | ⟨1, _⟩ => rfl

/-- The stored column at row r: Σ_k (g(r,k) - p(r,k))·(g(r,k) - p(r,k))·w(0,k). -/
theorem pay_apply (g p : Vec Ideal S256x4096 .f32) (w : Vec Ideal S1x4096 .f32) (r : Fin 256) (u : Fin 1) :
    k0_pay1 (F := Ideal) g p w (ix2 r u)
      = ∑ k : Fin 4096, ((g (ix2 r k) - p (ix2 r k)) * (g (ix2 r k) - p (ix2 r k))) * w (ix2 (0 : Fin 1) k) := by
  unfold k0_pay1
  refine (column_apply _ _ r u).trans ?_
  refine (rowsum_apply _ _ _ _ r).trans ?_
  refine Finset.sum_congr rfl fun k _ => ?_
  rw [mulf_apply, mulf_apply, subf_apply, broadcastTo_1b_ab_apply, shapeCast_self]

end Cert.KernelIdeal.RowQuad

end
-- ==== Proof.Column.lean ====
/-
  From the grid's 32 points to the whole [8192, 1] column.

  Point t reads rows 256·t … 256·t + 255 of the predictions and of the targets, and the one row of reciprocal
  variances whole; it writes rows 256·t … 256·t + 255 of the column. Every row of the column lies in exactly the
  block of point (row / 256), so after the run the column at row b is
      Σ_k (g(b,k) - p(b,k))² · w(0,k)
  of the arrays as the region finds them.
-/
import proofs.«107844_j6262062318269_1_alg».proof.Proof.Block

noncomputable section

namespace Cert.KernelIdeal.RowQuad

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Each row's weighted sum of squared differences, as a [8192, 1] column. -/
def quadCol (P G : S8192x4096.Idx → EReal) (W : S1x4096.Idx → EReal) : S8192x1.Idx → EReal :=
  fun i => ∑ k : Fin 4096, ((G (ix2 (i 0) k) - P (ix2 (i 0) k)) * (G (ix2 (i 0) k) - P (ix2 (i 0) k))) * W (ix2 (0 : Fin 1) k)

theorem zero_off : (![0, 0] : Fin 2 → Nat) = fun _ => 0 := funext fun a => by fin_cases a <;> rfl

/-- The printed index maps over the grid: the row-blocked windows sit at block (t, 0), the variance row at (0, 0). -/
theorem index_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The predictions' block at point t, at (r, k), is the array at (256·t + r, k). -/
theorem pred_block (c : Dev nD) (t : Fin cfg0.N) (x : S256x4096.Idx) (k : S8192x4096.Idx)
    (hk0 : (k 0).val = 256 * t.val + (x 0).val) (hk1 : (k 1).val = (x 1).val) :
    (iblk m c 0 t : Vec Ideal S256x4096 .f32) x = (V m c main_arg0 : S8192x4096.Idx → EReal) k := by
  obtain ⟨e0, e1, -⟩ := index_maps t
  unfold iblk
  rw [View.read_apply]
  show V m c main_arg0 _ = V m c main_arg0 _
  congr 1
  funext a
  apply Fin.ext
  match a with
  | ⟨0, _⟩ => show win0_0.index t 0 * 256 + 1 * (x 0).val = (k 0).val; rw [e0, hk0]; omega
  | ⟨1, _⟩ => show win0_0.index t 1 * 4096 + 1 * (x 1).val = (k 1).val; rw [e1, hk1]; omega

/-- The targets' block likewise. -/
theorem target_block (c : Dev nD) (t : Fin cfg0.N) (x : S256x4096.Idx) (k : S8192x4096.Idx)
    (hk0 : (k 0).val = 256 * t.val + (x 0).val) (hk1 : (k 1).val = (x 1).val) :
    (iblk m c 1 t : Vec Ideal S256x4096 .f32) x = (V m c main_arg1 : S8192x4096.Idx → EReal) k := by
  obtain ⟨-, -, e0, e1, -⟩ := index_maps t
  unfold iblk
  rw [View.read_apply]
  show V m c main_arg1 _ = V m c main_arg1 _
  congr 1
  funext a
  apply Fin.ext
  match a with
  | ⟨0, _⟩ => show win0_1.index t 0 * 256 + 1 * (x 0).val = (k 0).val; rw [e0, hk0]; omega
  | ⟨1, _⟩ => show win0_1.index t 1 * 4096 + 1 * (x 1).val = (k 1).val; rw [e1, hk1]; omega

/-- The variance row's block is the whole [1, 4096] array at every point. -/
theorem weight_block (c : Dev nD) (t : Fin cfg0.N) (x : S1x4096.Idx) :
    (iblk m c 2 t : Vec Ideal S1x4096 .f32) x = (V m c main_v3 : S1x4096.Idx → EReal) x := by
  obtain ⟨-, -, -, -, e0, e1, -⟩ := index_maps t
  unfold iblk
  rw [View.read_apply]
  show V m c main_v3 _ = V m c main_v3 _
  congr 1
  funext a
  apply Fin.ext
  match a with
  | ⟨0, _⟩ => show win0_2.index t 0 * 1 + 1 * (x 0).val = (x 0).val; rw [e0]; omega
  | ⟨1, _⟩ => show win0_2.index t 1 * 4096 + 1 * (x 1).val = (x 1).val; rw [e1]; omega

/-- What the body stores at point t, at row r of its block, is the column's value at row 256·t + r. -/
theorem stored_row (c : Dev nD) (t : Fin cfg0.N) (y : S256x1.Idx) (i : S8192x1.Idx)
    (hi : (i 0).val = 256 * t.val + (y 0).val) :
    k0_pay1 (F := Ideal) (iblk m c 1 t) (iblk m c 0 t) (iblk m c 2 t) y
      = quadCol (V m c main_arg0) (V m c main_arg1) (V m c main_v3) i := by
  obtain ⟨r, u, rfl⟩ : ∃ (r : Fin 256) (u : Fin 1), y = ix2 r u := ⟨y 0, y 1, eq_ix2 y⟩
  refine (pay_apply _ _ _ r u).trans ?_
  unfold quadCol
  refine Finset.sum_congr rfl fun k _ => ?_
  rw [pred_block m c t (ix2 r k) (ix2 (i 0) k) hi rfl, target_block m c t (ix2 r k) (ix2 (i 0) k) hi rfl,
    weight_block m c t (ix2 (0 : Fin 1) k)]

/-- WHAT POINT t WRITES BACK is block t of the column. -/
theorem flushed_col (c : Dev nD) (t : Fin cfg0.N) :
    (dats m 0 c).flushed 3 t
      = ((cfg0.win 3).blk t).view.read (Elt Ideal) (quadCol (V m c main_arg0) (V m c main_arg1) (V m c main_v3)) := by
  show (cfg0.win 3).cut (grid0.coords t) ((dats m 0 c).after 3 t) = _
  rw [after0_3]
  unfold out0_3
  rw [View.canon_unit_zero zero_off]
  simp only [View.ld_unit_zero (S := S256x4096) zero_off, View.ld_unit_zero (S := S1x4096) zero_off]
  obtain ⟨-, -, -, -, -, -, e0, e1⟩ := index_maps t
  funext j
  refine (stored_row m c t j _ ?_).trans rfl
  show win0_3.index t 0 * 256 + 1 * (j 0).val = 256 * t.val + (j 0).val
  rw [e0]; omega

/-- An index of the column is in point t's block iff each coordinate is in the block's range on its axis. -/
theorem mem_block (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v6).slice (win0_3.rect t)).set ↔ _
  rw [View.set_slice_whole, Rect.mem_set_unit]
  exact Iff.rfl

/-- Every block row of the column is some point's. -/
theorem rows_onto : ∀ q : Fin 32, ∃ t : Fin cfg0.N, t.val = q.val :=
  (by decide +kernel : ∀ q : Fin 32, ∃ t : Fin grid0.N, t.val = q.val)

/-- THE COLUMN after the run. -/
theorem final_col (c : Dev nD) :
    (dats m 0 c).arrAt 3 cfg0.N = quadCol (V m c main_arg0) (V m c main_arg1) (V m c main_v3) :=
  (dats m 0 c).arrAt_eq_of_cover 3 _ (fun t _ => flushed_col m c t) fun i => by
    have hi0 : (i 0).val < 8192 := (i 0).isLt
    have hi1 : (i 1).val < 1 := (i 1).isLt
    obtain ⟨t, ht⟩ := rows_onto ⟨(i 0).val / 256, by omega⟩
    obtain ⟨-, -, -, -, -, -, e0, e1⟩ := index_maps t
    refine ⟨t, flush0_3 t, ?_⟩
    rw [mem_block]
    intro a
    match a with
    | ⟨0, _⟩ => show win0_3.index t (0 : Fin 2) * 256 ≤ (i 0).val ∧ (i 0).val < win0_3.index t (0 : Fin 2) * 256 + 256; rw [e0, ht]; show (i 0).val / 256 * 256 ≤ (i 0).val ∧ (i 0).val < (i 0).val / 256 * 256 + 256; omega
    | ⟨1, _⟩ => show win0_3.index t (1 : Fin 2) * 1 ≤ (i 1).val ∧ (i 1).val < win0_3.index t (1 : Fin 2) * 1 + 1; rw [e1]; omega

end Cert.KernelIdeal.RowQuad

end
-- ==== Proof.KernelLoss.lean ====
/-
  The kernel's program, whole: the host lines before the region, the region, the host lines after it.

  Before the region the program forms, from σ, the variance v = softplus σ, the row of reciprocals 1 / v as a
  [1, 4096] array, and the log-determinant 0 + Σ_k log v_k. The region leaves the [8192, 1] column of weighted row
  sums. After it the program sums the column, halves it, adds 4096 log-determinants and the constant.
-/
import proofs.«107844_j6262062318269_1_alg».proof.Proof.Column
import proofs.«107844_j6262062318269_1_alg».proof.Proof.Spec
import Idealize.ShloMosaic.Lib.StableHlo.Run

noncomputable section

namespace Cert.KernelIdeal.RowQuad

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-- The log-standard-deviation input, as the program is launched with it. -/
abbrev sigmaArr (c : Dev nD) : S4096.Idx → EReal := m ((c : Thread nD τ).loc main_arg2)

/-- The row of reciprocal variances the region finds: at (0, k) it is 1 / softplus σ_k. -/
theorem weight_apply (c : Dev nD) (k : Fin 4096) :
    (V m c main_v3 : S1x4096.Idx → EReal) (ix2 (0 : Fin 1) k)
      = Ideal.div (Ideal.ofBits .f32 0x3F800000#32) (DiagGauss.sp (sigmaArr m c (ix1 k))) := by
  have e : (V m c main_v3 : S1x4096.Idx → EReal)
      = shapeCast S1x4096 (fun j : S4096.Idx => Ideal.div (Ideal.ofBits .f32 0x3F800000#32) (DiagGauss.sp (sigmaArr m c j)))
          shapeCasts_S4096_S1x4096 := by
    dsimp only [Gen.V, Gen.V0]
    simp only [Gen.hostOps0, Gen.hostOps0_1, List.flatten_cons, List.flatten_nil, List.append_nil, List.cons_append,
      List.nil_append]
    after_results
    rfl
  rw [e]
  exact shapeCast_a_1a_apply _ _ 0 k

/-- The log-determinant the region passes by: 0 + Σ_k log softplus σ_k. -/
theorem logdet_eq (c : Dev nD) (i : S_.Idx) :
    (V m c main_v5 : S_.Idx → EReal) i
      = Ideal.ofBits .f32 0x00000000#32 + ∑ j : S4096.Idx, Ideal.log (DiagGauss.sp (sigmaArr m c j)) := by
  have e : (V m c main_v5 : S_.Idx → EReal)
      = Host.reduceAdd (F := Ideal) (fun j : S4096.Idx => Ideal.log (DiagGauss.sp (sigmaArr m c j)))
          (constant (F := Ideal) S_ .f32 0x00000000#32) reducesTo_S4096_S_d0 h_S_ := by
    dsimp only [Gen.V, Gen.V0]
    simp only [Gen.hostOps0, Gen.hostOps0_1, List.flatten_cons, List.flatten_nil, List.append_nil, List.cons_append,
      List.nil_append]
    after_results
    rfl
  rw [e]
  exact Ideal.hostReduceAdd_total reducesTo_S4096_S_d0 (fun b => b.elim0) _ _ i

/-- The sum of the whole column: 0 + Σ over its 8192 entries. -/
theorem colsum_apply (X : S8192x1.Idx → EReal) (i : S_.Idx) :
    Host.reduceAdd (F := Ideal) X (constant (F := Ideal) S_ .f32 0x00000000#32) reducesTo_S8192x1_S_d0_1 h_S_ i
      = Ideal.ofBits .f32 0x00000000#32 + ∑ a : S8192x1.Idx, X a :=
  Ideal.hostReduceAdd_total reducesTo_S8192x1_S_d0_1 (fun b => b.elim0) _ _ i

/-- The column depends on the weights only through their one row. -/
theorem quadCol_weights (P G : S8192x4096.Idx → EReal) (W W' : S1x4096.Idx → EReal)
    (h : ∀ k : Fin 4096, W (ix2 (0 : Fin 1) k) = W' (ix2 (0 : Fin 1) k)) : quadCol P G W = quadCol P G W' := by
  funext i
  unfold quadCol
  exact Finset.sum_congr rfl fun k _ => by rw [h k]

/-- What the host lines after the region leave in the result: half the column's sum, plus 4096 log-determinants,
    plus the constant — the kernel's scalar of the launch contents of the three inputs. -/
theorem result_eq (c : Dev nD) :
    Pipeline.afterTail₀ cfgs (dats m) 0 (V0 m) [hostOps1] c main_v11
      = fun _ => DiagGauss.kernelLoss (m ((c : Thread nD τ).loc main_arg0)) (m ((c : Thread nD τ).loc main_arg1))
          (m ((c : Thread nD τ).loc main_arg2)) := by
  have hcol : Pipeline.withArrays (cfgs 0).spec c (V0 m c) (fun w => (dats m 0 c).arrAt w (cfgs 0).N) (Proc.devRef .tc main_v6)
      = quadCol (V m c main_arg0) (V m c main_arg1) (V m c main_v3) :=
    (Pipeline.withArrays_arr spec0 launch0.win.arr_inj c _ _ 3).trans (final_col m c)
  have hld : Pipeline.withArrays (cfgs 0).spec c (V0 m c) (fun w => (dats m 0 c).arrAt w (cfgs 0).N) (Proc.devRef .tc main_v5)
      = V m c main_v5 :=
    Pipeline.withArrays_of_ne _ c (V0 m c) _ main_v5 (by exact (by decide : ∀ w, Pipeline.arrRef spec0 w ≠ main_v5))
  unfold Pipeline.afterTail₀
  show StableHlo.after hostOps1 _ (Proc.devRef .tc main_v11) = _
  after_results
  rw [hcol, hld]
  funext i
  refine Eq.trans (show _ = (Ideal.ofBits .f32 0x3F000000#32
        * Host.reduceAdd (F := Ideal) (quadCol (V m c main_arg0) (V m c main_arg1) (V m c main_v3))
            (constant (F := Ideal) S_ .f32 0x00000000#32) reducesTo_S8192x1_S_d0_1 h_S_ i
      + Ideal.ofBits .f32 0x45800000#32 * (V m c main_v5 : S_.Idx → EReal) i)
    + Ideal.ofBits .f32 0x4BEB3F8E#32 from rfl) ?_
  rw [colsum_apply, logdet_eq, V_main_arg0, V_main_arg1,
    quadCol_weights _ _ _ (fun x => Ideal.div (Ideal.ofBits .f32 0x3F800000#32) (DiagGauss.sp (sigmaArr m c (ix1 (x 1)))))
      (fun k => weight_apply m c k)]
  rfl

/-- The kernel's run, read: the result at the kernel's scalar, the three inputs unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v11)
          = (fun _ => DiagGauss.kernelLoss (m ((c : Thread nD τ).loc main_arg0)) (m ((c : Thread nD τ).loc main_arg1))
              (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v11 (Pipeline.mem_restRefs_of main_v11 (by decide) (by decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.RowQuad

end
-- ==== Proof.RefLoss.lean ====
/-
  The reference, whole: its result is
    -(0 + Σ_b -½ · (((0 + Σ_k (g_bk - p_bk)² / v_k) + (0 + Σ_k log v_k)) + 7527.94…)),   v = softplus σ.

  Read one operation at a time off the reference's run: the quotient's divisor is the variance broadcast over the rows, so
  at (b, k) it is the variance at k; the sum over axis 1 at b runs over the entries (b, k); the log-determinant and the
  constant are broadcast over the 8192 rows.
-/
import proofs.«107844_j6262062318269_1_alg».proof.Proof.Gen.ReferenceIdeal.Read
import proofs.«107844_j6262062318269_1_alg».proof.Proof.Spec

noncomputable section

namespace Cert.ReferenceIdeal.Loss

open Cert.ReferenceIdeal Cert.ReferenceIdeal.Gen Cert.ReferenceIdeal.Read
open Idealize.ShloMosaic Idealize.ShloMosaic.ValueIdx

/-- The k-th entry that reduces into row b is (b, k). -/
theorem idx_row (j : S8192.Idx) (k : Fin 4096) : idx_main_v6 j k = ix2 (j 0) k :=
  funext fun a => Fin.ext (by match a with | ⟨0, _⟩ => rfl | ⟨1, _⟩ => rfl)

/-- The variance broadcast to [1, 4096] and then over the rows is read, at (b, k), at k. -/
theorem idx_lane (i : S8192x4096.Idx) : idx_main_v3 (idx_main_v4 i) = ix1 (i 1) :=
  funext fun a => Fin.ext (by match a with | ⟨0, _⟩ => rfl)

/-- The reference's variance is softplus, coordinate by coordinate. -/
theorem variance_apply (x2 : S4096.Idx → EReal) (j : S4096.Idx) :
    val_main_v0 (F := Ideal) x2 j = DiagGauss.sp (x2 j) := rfl

set_option backward.isDefEq.respectTransparency.types false in
/-- One entry of the quotient: (g - p)² / v_k at (b, k). -/
theorem quotient_apply (x0 x1 : S8192x4096.Idx → EReal) (x2 : S4096.Idx → EReal) (j : S8192.Idx) (k : Fin 4096) :
    val_main_v5 (F := Ideal) x0 x1 x2 (idx_main_v6 j k)
      = Ideal.div ((x1 (ix2 (j 0) k) - x0 (ix2 (j 0) k)) * (x1 (ix2 (j 0) k) - x0 (ix2 (j 0) k))) (DiagGauss.sp (x2 (ix1 k))) := by
  rw [val_main_v5_apply, val_main_v4_apply, val_main_v3_apply, idx_lane, variance_apply, val_main_v2_apply, val_main_v1_apply,
    idx_row]
  rfl

/-- One row's term of the final sum. -/
theorem row_term (x0 x1 : S8192x4096.Idx → EReal) (x2 : S4096.Idx → EReal) (j : S8192.Idx) :
    val_main_v14 (F := Ideal) x0 x1 x2 j
      = Ideal.ofBits .f32 0xBF000000#32
          * (((Ideal.ofBits .f32 0x00000000#32
                + ∑ k : Fin 4096,
                    Ideal.div ((x1 (ix2 (j 0) k) - x0 (ix2 (j 0) k)) * (x1 (ix2 (j 0) k) - x0 (ix2 (j 0) k))) (DiagGauss.sp (x2 (ix1 k))))
              + (Ideal.ofBits .f32 0x00000000#32 + ∑ j' : S4096.Idx, Ideal.log (DiagGauss.sp (x2 j'))))
            + Ideal.ofBits .f32 0x45EB3F8E#32) := by
  rw [val_main_v14_apply, val_main_v12_apply, val_main_v10_apply, val_main_v6_apply, val_main_v9_apply, val_main_v8_apply]
  simp only [quotient_apply]
  rfl

/-- The reference's result. -/
theorem result_eq (x0 x1 : S8192x4096.Idx → EReal) (x2 : S4096.Idx → EReal) (i : S_.Idx) :
    val_main_v16 (F := Ideal) x0 x1 x2 i = DiagGauss.refLoss x0 x1 x2 := by
  rw [val_main_v16_apply, val_main_v15_apply]
  simp only [row_term]
  rfl

end Cert.ReferenceIdeal.Loss

end
-- ==== Proof.lean ====
/-
  Diagonal-Gaussian negative log-likelihood: a row-blocked kernel against its jnp reference, over the reals.

  With v = softplus σ the reference computes
      -Σ_b -½ · (Σ_k (g_bk - p_bk)² / v_k + Σ_k log v_k + c),        c = n · log 2π as an f32,
  and the kernel's program computes
      ½ · Σ_b (Σ_k (g_bk - p_bk)² · (1 / v_k)) + 4096 · Σ_k log v_k + C,   C = (rows / 2) · n · log 2π as an f32,
  the inner sums by a Pallas call over 32 blocks of 256 rows, everything else in host operations.
  The two float words for the constants have one significand, twelve binary places apart: C = 4096 · c exactly.
  Under the precondition every input is a real, so v is a positive real, division by it is multiplication by its
  reciprocal, and all sums are real sums; the two expressions are then equal by distributing the factor ½ over the
  8192 rows (Proof/Spec.lean). The kernel's side is read off its frame run (Proof/Block.lean: one grid point;
  Proof/Column.lean: the 32 points tile the column; Proof/KernelLoss.lean: the host lines around the region), the
  reference's off its run, one operation at a time (Proof/RefLoss.lean); Proof/Finite.lean reads the precondition.
  The ideal pass rewrote nothing, so the kernel's idealization is its own text and that claim is trivial.
-/
import proofs.«107844_j6262062318269_1_alg».proof.Defs
import proofs.«107844_j6262062318269_1_alg».proof.Proof.Gen.Kernel
import proofs.«107844_j6262062318269_1_alg».proof.Proof.Gen.Kernel.Skeleton
import proofs.«107844_j6262062318269_1_alg».proof.Proof.Gen.Kernel.Launch
import proofs.«107844_j6262062318269_1_alg».proof.Proof.Gen.Kernel.Points
import proofs.«107844_j6262062318269_1_alg».proof.Proof.Gen.Kernel.Frame
import proofs.«107844_j6262062318269_1_alg».proof.Proof.Gen.KernelIdeal
import proofs.«107844_j6262062318269_1_alg».proof.Proof.Gen.KernelIdeal.Skeleton
import proofs.«107844_j6262062318269_1_alg».proof.Proof.Gen.KernelIdeal.Launch
import proofs.«107844_j6262062318269_1_alg».proof.Proof.Gen.KernelIdeal.Points
import proofs.«107844_j6262062318269_1_alg».proof.Proof.Gen.KernelIdeal.Frame
import proofs.«107844_j6262062318269_1_alg».proof.Proof.Gen.ReferenceIdeal
import proofs.«107844_j6262062318269_1_alg».proof.Proof.Gen.Pre_finite_inputs
import proofs.«107844_j6262062318269_1_alg».proof.Proof.Gen.ReferenceIdeal.Run
import proofs.«107844_j6262062318269_1_alg».proof.Proof.Gen.ReferenceIdeal.Read
import proofs.«107844_j6262062318269_1_alg».proof.Proof.Spec
import proofs.«107844_j6262062318269_1_alg».proof.Proof.Finite
import proofs.«107844_j6262062318269_1_alg».proof.Proof.KernelLoss
import proofs.«107844_j6262062318269_1_alg».proof.Proof.RefLoss
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the kernel's scalar of the inputs: the kernel by its run read through the region and the host
    lines, the reference because on real inputs its scalar is the same extended real. -/
theorem algebraic : Cert.algebraic_KernelIdeal_ReferenceIdeal := by
  intro m ρ m' ρ' hpre hagree
  refine ⟨_, Cert.KernelIdeal.RowQuad.run m ρ, ?_⟩
  refine (θ_run Cert.ReferenceIdeal.defs _ _).mono (fun _ h c => ⟨(h c).1.trans ?_, (h c).2⟩)
    (Cert.ReferenceIdeal.Value.run (F := Ideal) m' ρ')
  obtain ⟨hP, hG, hσ⟩ := Cert.Pre_finite_inputs.Reals.reals_of_pre _ _ _ (hpre c)
  rw [Cert.ReferenceIdeal.Read.val_main_v16_eq, (hagree c).1, (hagree c).2.1, (hagree c).2.2]
  funext i
  rw [Cert.ReferenceIdeal.Loss.result_eq]
  exact (Cert.DiagGauss.kernelLoss_eq_refLoss _ _ _ hP hG hσ).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
